-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x1024 .f32) (main_arg1 : FVec F S4096x1024 .f32) (main_arg2 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x1024 : Shape := ⟨2, ![16384, 1024]⟩
abbrev S4096x1024 : Shape := ⟨2, ![4096, 1024]⟩
abbrev S4096 : Shape := ⟨1, ![4096]⟩
abbrev S1024x4x1024 : Shape := ⟨3, ![1024, 4, 1024]⟩
abbrev S4x1024x1024 : Shape := ⟨3, ![4, 1024, 1024]⟩
abbrev S1024x4 : Shape := ⟨2, ![1024, 4]⟩
abbrev S4x1024 : Shape := ⟨2, ![4, 1024]⟩
abbrev S16384 : Shape := ⟨1, ![16384]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩

abbrev nBuf : Space → Nat
  | .hbm => 9
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S1024x4, .f32⟩
  | .hbm, ⟨7, _⟩ => ⟨S4x1024, .f32⟩
  | .hbm, ⟨8, _⟩ => ⟨S16384, .f32⟩
  | .local _ .vmem, ⟨0, _⟩ => ⟨S1024x1024, .f32⟩
  | .local _ .vmem, ⟨1, _⟩ => ⟨S1024x1024, .f32⟩
  | .local _ .vmem, ⟨2, _⟩ => ⟨S4x1024x1024, .bf16⟩
  | .local _ .vmem, ⟨3, _⟩ => ⟨S4x1024, .f32⟩
  | .local _ .vmem, ⟨4, _⟩ => ⟨S1024, .f32⟩
  | .local _ .vmem, ⟨5, _⟩ => ⟨S1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x1024_S1024x4x1024 : S4096x1024.ShapeCasts S1024x4x1024
  transposes_S1024x4x1024_S4x1024x1024_1_2_0 : S1024x4x1024.Transposes [1, 2, 0] S4x1024x1024
  bitsLt_bf16_f32 : FTy.bits .bf16 < FTy.bits .f32
  shapeCasts_S4096_S1024x4 : S4096.ShapeCasts S1024x4
  transposes_S1024x4_S4x1024_1_0 : S1024x4.Transposes [1, 0] S4x1024
  inb_S1024x1024_S1024x1024_0_0 : ∀ a, (![0, 0] : Fin 2 → Nat) a + S1024x1024.size a ≤ S1024x1024.size a
  h_S1024x1024 : 0 < S1024x1024.numel
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  reduces_S1024x1024_S1024 : S1024x1024.Reduces [1] S1024
  inb_S1024_S1024_0 : ∀ a, (![0] : Fin 1 → Nat) a + S1024.size a ≤ S1024.size a
  h_S1024 : 0 < S1024.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024x1024.size a ≤ S4x1024x1024.size a
  hwx0_1 : ∀ i : grid0.Coords, EltTy.bits .bf16 = 32 ∨ (Rect.block (s := S4x1024x1024) S4x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x1024.size a
  hwx0_2 : ∀ i : grid0.Coords, EltTy.bits .f32 = 32 ∨ (Rect.block (s := S4x1024) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S16384.size a
  hwx0_3 : ∀ i : grid0.Coords, EltTy.bits .f32 = 32 ∨ (Rect.block (s := S16384) S1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S16384x4096 : Shape := ⟨2, ![16384, 4096]⟩
abbrev S1x4096 : Shape := ⟨2, ![1, 4096]⟩
abbrev S16384x1024x4 : Shape := ⟨3, ![16384, 1024, 4]⟩
abbrev S_ : Shape := ⟨0, ![]⟩
abbrev S16384 : Shape := ⟨1, ![16384]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S16384x1024x4, .f32⟩
  | .hbm, ⟨8, _⟩ => ⟨S_, .f32⟩
  | .hbm, ⟨9, _⟩ => ⟨S16384x1024, .f32⟩
  | .hbm, ⟨10, _⟩ => ⟨S_, .f32⟩
  | .hbm, ⟨11, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x4096_S16384x1024x4 : S16384x4096.ShapeCasts S16384x1024x4
  reducesTo_S16384x1024x4_S16384x1024_d2 : S16384x1024x4.ReducesTo [2] S16384x1024
  h_S_ : 0 < S_.numel
  reducesTo_S16384x1024_S16384_d1 : S16384x1024.ReducesTo [1] S16384
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.PoolSpec.lean ====
/-
  The function both programs compute, stated once over the argument arrays.

  A linear layer `y[r, o] = ∑ i, x[r, i] · w[o, i] + b[o]` over 4096 output channels is pooled by a
  non-overlapping window of four consecutive channels (window `j` holds channels `4j`, `4j+1`, `4j+2`, `4j+3`),
  each window is replaced by its maximum, and the 1024 window maxima of a row are summed:
  `out[r] = ∑ j, max_k y[r, 4j + k]`.  Everything is read on the extended reals, where `+`, `·` and `max`
  are total; no cancellation or distributivity is used anywhere, so no finiteness is needed.
-/
import Idealize.ShloMosaic.PureOps.Ideal
import Idealize.ShloMosaic.Lib.ValueIdx

noncomputable section

open scoped BigOperators

namespace Cert.PoolSpec

open Idealize.ShloMosaic Idealize.ShloMosaic.ValueIdx

/-- Channel `4j + k`: member `k` of pooling window `j`. -/
def chan (j : Fin 1024) (k : Fin 4) : Fin 4096 := ⟨4 * j.val + k.val, by omega⟩

theorem chan_val (j : Fin 1024) (k : Fin 4) : (chan j k).val = 4 * j.val + k.val := rfl

/-- The linear layer at row `r`, window `j`, member `k`: the row of `x` against row `4j + k` of the weight, plus
    that channel's bias. -/
def lin (x : (⟨2, ![16384, 1024]⟩ : Shape).Idx → EReal) (w : (⟨2, ![4096, 1024]⟩ : Shape).Idx → EReal)
    (b : (⟨1, ![4096]⟩ : Shape).Idx → EReal) (r : Fin 16384) (j : Fin 1024) (k : Fin 4) : EReal :=
  (∑ i : Fin 1024, x (ix2 r i) * w (ix2 (chan j k) i)) + b (ix1 (chan j k))

/-- The maximum of four extended reals, associated to the left. -/
def max4 (f : Fin 4 → EReal) : EReal := max (max (max (f 0) (f 1)) (f 2)) (f 3)

/-- Row `r` of the result: the sum over the 1024 windows of each window's maximum. -/
def pooled (x : (⟨2, ![16384, 1024]⟩ : Shape).Idx → EReal) (w : (⟨2, ![4096, 1024]⟩ : Shape).Idx → EReal)
    (b : (⟨1, ![4096]⟩ : Shape).Idx → EReal) (r : Fin 16384) : EReal :=
  ∑ j : Fin 1024, max4 (lin x w b r j)

/-- The whole result array. -/
def G (x : (⟨2, ![16384, 1024]⟩ : Shape).Idx → EReal) (w : (⟨2, ![4096, 1024]⟩ : Shape).Idx → EReal)
    (b : (⟨1, ![4096]⟩ : Shape).Idx → EReal) : (⟨1, ![16384]⟩ : Shape).Idx → EReal :=
  fun i => pooled x w b (i 0)

/-- A fold of `max` over the four members of a window, started from `-∞`, is the maximum of the four: `-∞` is
    neutral for `max`, and `max` associates and commutes. -/
theorem fold_max_fin4_bot (f : Fin 4 → EReal) :
    (Finset.univ : Finset (Fin 4)).fold max (⊥ : EReal) f = max4 f := by
  have hu : (Finset.univ : Finset (Fin 4)) = insert 0 (insert 1 (insert 2 (insert 3 ∅))) := by decide
  rw [hu, Finset.fold_insert (by decide), Finset.fold_insert (by decide), Finset.fold_insert (by decide),
    Finset.fold_insert (by decide), Finset.fold_empty]
  unfold max4
  rw [max_bot_right, max_assoc, max_assoc]

end Cert.PoolSpec

end
-- ==== Proof.RefIsG.lean ====
/-
  The reference's result array is the pooled linear layer `PoolSpec.G` of its three arguments.

  The reference computes the whole [16384, 4096] linear output (a contraction over the 1024 input features plus
  the bias broadcast over rows), views each row as 1024 windows of 4 consecutive channels, takes each window's
  maximum by a fold of `max` started at `-∞`, and sums the 1024 maxima of a row starting from `0`.
  Read at row `r`: the entry `(r, j, k)` of the windowed view is the entry `(r, 4j + k)` of the linear output
  (both have row-major position `(r · 1024 + j) · 4 + k`), which is `lin x w b r j k`.
-/
import proofs.«154940_j23656679866950_1_alg».proof.Proof.Gen.ReferenceIdeal.Read
import proofs.«154940_j23656679866950_1_alg».proof.Proof.PoolSpec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.PoolSpec

/-- The windowed view reduces over its last axis, the four members of a window. -/
theorem reduces_window : S16384x1024x4.Reduces [2] S16384x1024 := by decide

/-- Window index `(r, j)` with member `k` put back on the last axis is `(r, j, k)`. -/
theorem lift_window (r : Fin 16384) (j : Fin 1024) (k : Fin (S16384x1024x4.size 2)) :
    reduces_window.lift (ix2 r j) k = ix3 r j (⟨k.val, k.isLt⟩ : Fin 4) := by
  funext c; apply Fin.ext
  fin_cases c <;> rfl

/-- The pattern `0xFF800000` is `-∞`. -/
theorem ofBits_neg_inf : Ideal.ofBits .f32 0xFF800000#32 = (⊥ : EReal) := by
  simp [Ideal.ofBits, Ideal.ieee]

/-- Entry `(r, j, k)` of the windowed linear output is `lin x w b r j k`. -/
theorem windowed_apply (x : (⟨S16384x1024, .f32⟩ : BufTy).Contents (Elt Ideal)) (w : (⟨S4096x1024, .f32⟩ : BufTy).Contents (Elt Ideal))
    (b : (⟨S4096, .f32⟩ : BufTy).Contents (Elt Ideal)) (r : Fin 16384) (j : Fin 1024) (k : Fin 4) :
    val_main_v4 (F := Ideal) x w b (ix3 r j k) = lin x w b r j k := by
  have hr : r.val < 16384 := r.isLt
  have hj : j.val < 1024 := j.isLt
  have hk : k.val < 4 := k.isLt
  rw [val_main_v4_apply, val_main_v3_apply, val_main_v0_apply, val_main_v2_apply, val_main_v1_apply]
  unfold lin
  have el : ∀ i : Fin 1024, lidx_main_v0 (idx_main_v4 (ix3 r j k)) i = ix2 r i := fun i => funext fun a => Fin.ext (by
    match a with
    | ⟨0, _⟩ => show ((r.val * 1024 + j.val) * 4 + k.val) / 4096 = r.val; omega
    | ⟨1, _⟩ => rfl)
  have er : ∀ i : Fin 1024, ridx_main_v0 (idx_main_v4 (ix3 r j k)) i = ix2 (chan j k) i := fun i => funext fun a => Fin.ext (by
    match a with
    | ⟨0, _⟩ => show ((r.val * 1024 + j.val) * 4 + k.val) % 4096 = 4 * j.val + k.val; omega
    | ⟨1, _⟩ => rfl)
  have eb : idx_main_v1 (idx_main_v2 (idx_main_v4 (ix3 r j k))) = ix1 (chan j k) := funext fun a => Fin.ext (by
    match a with
    | ⟨0, _⟩ => show ((r.val * 1024 + j.val) * 4 + k.val) % 4096 = 4 * j.val + k.val; omega)
  rw [eb]
  exact congrArg (· + b (ix1 (chan j k))) (Finset.sum_congr rfl fun i _ => by rw [el i, er i])

/-- The reference's result is the pooled linear layer of its arguments. -/
theorem result_eq (x : (⟨S16384x1024, .f32⟩ : BufTy).Contents (Elt Ideal)) (w : (⟨S4096x1024, .f32⟩ : BufTy).Contents (Elt Ideal))
    (b : (⟨S4096, .f32⟩ : BufTy).Contents (Elt Ideal)) :
    val_main_v6 (F := Ideal) x w b = G x w b := by
  funext i
  obtain ⟨r, rfl⟩ : ∃ r : Fin 16384, i = ix1 r := ⟨i 0, eq_ix1 i⟩
  rw [val_main_v6_apply]
  show Ideal.ofBits .f32 0x00000000#32 + _ = pooled x w b r
  rw [Ideal.ofBits_zero_f32, zero_add]
  unfold pooled
  refine Finset.sum_congr rfl fun j _ => ?_
  have hidx : idx_main_v6 (ix1 r) j = ix2 r j := funext fun a => Fin.ext (by
    match a with
    | ⟨0, _⟩ => rfl
    | ⟨1, _⟩ => rfl)
  rw [hidx]
  unfold val_main_v5
  rw [Host.reduce_eq_fold_single FloatOps.maximumf _ _ reducesTo_S16384x1024x4_S16384x1024_d2 reduces_window h_S_]
  have hf : (val_main_v4 (F := Ideal) x w b ∘ reduces_window.lift (ix2 r j)) = fun k : Fin 4 => lin x w b r j k :=
    funext fun k => by
      show val_main_v4 (F := Ideal) x w b (reduces_window.lift (ix2 r j) k) = _
      rw [lift_window]
      exact windowed_apply x w b r j _
  rw [hf]
  show Finset.fold max (Ideal.ofBits .f32 0xFF800000#32) _ _ = _
  rw [ofBits_neg_inf]
  exact fold_max_fin4_bot _

end Cert.ReferenceIdeal.RefValue

end
-- ==== Proof.KernelBlock.lean ====
/-
  What one grid point's body leaves in the output block, read at a row.

  A point holds a block `xb` of 1024 rows of `x`, the four "phase" matrices `wp[k]` (a [1024, 1024] matrix per window
  member `k`, input feature by window) and the four phase bias rows `bp[k]`.  For each phase the body forms
  `y_k = xb · wp[k] + bp[k]` (the bias row repeated over the rows), takes the running maximum over the four phases,
  and sums each row over the 1024 windows.  So row `p` of the block is
  `∑ q, max_k ((∑ i, xb[p, i] · wp[k][i, q]) + bp[k][q])`.
  The contraction into a zero accumulator is the plain sum of products; the change of float format of the
  `x` block is the identity on the extended reals.
-/
import proofs.«154940_j23656679866950_1_alg».proof.Proof.Gen.KernelIdeal.Frame
import proofs.«154940_j23656679866950_1_alg».proof.Proof.PoolSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PoolValue

open Cert.KernelIdeal Cert.KernelIdeal.Gen Idealize.ShloMosaic Idealize.ShloMosaic.ValueIdx
open Cert.PoolSpec

/-! ## The contraction's operand indices -/

theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A [1024, 1024] by [1024, 1024] contraction into the zero accumulator, at `(p, q)`: row `p` of the left operand
    against column `q` of the right one. -/
theorem matmul_apply_pq (a v : FVec Ideal S1024x1024 .bf16) (p q : Fin 1024) :
    matmul (F := Ideal) dot_S1024x1024_S1024x1024_S1024x1024_1_0_0_1_n_n none a v (constant S1024x1024 .f32 0x00000000#32) (ix2 p q)
      = ∑ i : Fin 1024, a (ix2 p i) * v (ix2 i q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun c => Fin.ext (by
    match c with
    | ⟨0, _⟩ => exact lhs_mm_0 _ _
    | ⟨1, _⟩ => exact (lhs_mm_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun c => Fin.ext (by
    match c with
    | ⟨0, _⟩ => exact (rhs_mm_0 _ _).trans hk
    | ⟨1, _⟩ => exact rhs_mm_1 _ _)
  rw [el, er]

/-! ## One phase -/

/-- One phase at `(p, q)`: the `x` block's row `p` against column `q` of the phase's matrix, plus entry `q` of the
    phase's bias row. -/
theorem phase_apply (xb : Vec Ideal S1024x1024 .f32) (wk : FVec Ideal S1x1024x1024 .bf16) (bk : FVec Ideal S1x1024 .f32) (p q : Fin 1024) :
    addf (F := Ideal) (matmul (F := Ideal) dot_S1024x1024_S1024x1024_S1024x1024_1_0_0_1_n_n none (k0_pay2 (F := Ideal) xb)
        (shapeCast S1024x1024 wk shapeCasts_S1x1024x1024_S1024x1024) (constant S1024x1024 .f32 0x00000000#32))
      (broadcastTo S1024x1024 (shapeCast S1x1024 (shapeCast S1024 bk shapeCasts_S1x1024_S1024) shapeCasts_S1024_S1x1024) broadcasts_S1x1024_S1024x1024) (ix2 p q)
    = (∑ i : Fin 1024, (xb (ix2 p i) : EReal) * wk (ix3 (0 : Fin 1) i q)) + bk (ix2 (0 : Fin 1) q) := by
  rw [addf_apply, matmul_apply_pq]
  have hb : broadcastTo S1024x1024 (shapeCast S1x1024 (shapeCast S1024 bk shapeCasts_S1x1024_S1024) shapeCasts_S1024_S1x1024) broadcasts_S1x1024_S1024x1024 (ix2 p q)
      = bk (ix2 (0 : Fin 1) q) :=
    (broadcastTo_1b_ab_apply _ broadcasts_S1x1024_S1024x1024 p q).trans
      ((shapeCast_a_1a_apply _ shapeCasts_S1024_S1x1024 (0 : Fin 1) q).trans
        (shapeCast_1a_a_apply bk shapeCasts_S1x1024_S1024 q))
  rw [hb]
  refine congrArg (· + bk (ix2 (0 : Fin 1) q)) (Finset.sum_congr rfl fun i _ => ?_)
  have hw : shapeCast S1024x1024 wk shapeCasts_S1x1024x1024_S1024x1024 (ix2 i q) = wk (ix3 (0 : Fin 1) i q) :=
    shapeCast_1ab_ab_apply wk shapeCasts_S1x1024x1024_S1024x1024 i q
  rw [hw]
  rfl

/-! ## The body's stored value at a row -/

/-- One phase's term at block row `p` and window `q`, over a phase's own matrix and bias row. -/
def ph (xb : Vec Ideal S1024x1024 .f32) (wk : FVec Ideal S1x1024x1024 .bf16) (bk : FVec Ideal S1x1024 .f32) (p q : Fin 1024) : EReal :=
  (∑ i : Fin 1024, (xb (ix2 p i) : EReal) * wk (ix3 (0 : Fin 1) i q)) + bk (ix2 (0 : Fin 1) q)

/-- The row sum reduces the block's second axis. Row `p` with window `q` put back is `(p, q)`. -/
theorem lift_row (p : Fin 1024) (q : Fin (S1024x1024.size 1)) :
    (reduces_S1024x1024_S1024 : S1024x1024.Reduces [1] S1024).lift (ix1 p) q = ix2 p (⟨q.val, q.isLt⟩ : Fin 1024) := by
  funext c; apply Fin.ext
  fin_cases c <;> rfl

/-- A row sum of a [1024, 1024] value from the zero accumulator, at row `p`: the sum of that row's entries. -/
theorem rowsum_apply (src : FVec Ideal S1024x1024 .f32) (p : Fin 1024) :
    multiReduction (F := Ideal) .add [1] S1024 src 0x00000000#32 reduces_S1024x1024_S1024 (.inl rfl) rfl (ix1 p)
      = ∑ q : Fin 1024, src (ix2 p q) := by
  refine (Ideal.multiReduction_add_single src 0x00000000#32 reduces_S1024x1024_S1024 (.inl rfl) rfl (ix1 p)).trans ?_
  show (∑ q : Fin 1024, src ((reduces_S1024x1024_S1024 : S1024x1024.Reduces [1] S1024).lift (ix1 p) q)) = _
  exact Finset.sum_congr rfl fun q _ => congrArg src (lift_row p q)

/-- The stored vector at row `p`: the sum over the windows of the maximum of the four phases' terms. -/
theorem pay_apply (v0 : Vec Ideal S1024x1024 .f32) (w0 w1 w2 w3 : FVec Ideal S1x1024x1024 .bf16) (b0 b1 b2 b3 : FVec Ideal S1x1024 .f32) (p : Fin 1024) :
    k0_pay1 (F := Ideal) (k0_pay3 (F := Ideal) v0 w0 b0 w1 b1 w2 b2) (k0_pay4 (F := Ideal) v0 w3) (k0_pay5 (F := Ideal) b3) (ix1 p)
      = ∑ q : Fin 1024, max (max (max (ph v0 w0 b0 p q) (ph v0 w1 b1 p q)) (ph v0 w2 b2 p q)) (ph v0 w3 b3 p q) := by
  unfold k0_pay1
  refine (rowsum_apply _ p).trans ?_
  refine Finset.sum_congr rfl fun q _ => ?_
  have h3 : k0_pay3 (F := Ideal) v0 w0 b0 w1 b1 w2 b2 (ix2 p q)
      = max (max (ph v0 w0 b0 p q) (ph v0 w1 b1 p q)) (ph v0 w2 b2 p q) := by
    unfold k0_pay3
    exact congrArg₂ max (congrArg₂ max (phase_apply v0 w0 b0 p q) (phase_apply v0 w1 b1 p q)) (phase_apply v0 w2 b2 p q)
  have h4 : addf (F := Ideal) (k0_pay4 (F := Ideal) v0 w3)
      (broadcastTo S1024x1024 (shapeCast S1x1024 (k0_pay5 (F := Ideal) b3) shapeCasts_S1024_S1x1024) broadcasts_S1x1024_S1024x1024) (ix2 p q)
      = ph v0 w3 b3 p q := by
    unfold k0_pay4 k0_pay5
    exact phase_apply v0 w3 b3 p q
  exact congrArg₂ max h3 h4

/-! ## The block's result over the whole phase arrays -/

theorem hz1 : (![0] : Fin 1 → Nat) = fun _ => 0 := funext fun a => by fin_cases a <;> rfl
theorem hz2 : (![0, 0] : Fin 2 → Nat) = fun _ => 0 := funext fun a => by fin_cases a <;> rfl

/-- Phase `k`'s matrix is slab `k` of the stacked phase matrices. -/
theorem ld_phase_w (wp : Vec Ideal S4x1024x1024 .bf16) (o : Nat)
    (inb : ∀ a, (![o, 0, 0] : Fin 3 → Nat) a + S1x1024x1024.size a ≤ S4x1024x1024.size a) (k : Fin 4) (hk : k.val = o) (i q : Fin 1024) :
    View.ld wp (Rect.unit (s := S4x1024x1024) ![o, 0, 0] S1x1024x1024.size inb) (ix3 (0 : Fin 1) i q) = wp (ix3 k i q) := by
  subst hk
  exact congrArg wp (funext fun a => Fin.ext (by
    match a with
    | ⟨0, _⟩ => show k.val + 1 * 0 = k.val; omega
    | ⟨1, _⟩ => show 0 + 1 * i.val = i.val; omega
    | ⟨2, _⟩ => show 0 + 1 * q.val = q.val; omega))

/-- Phase `k`'s bias row is row `k` of the stacked bias rows. -/
theorem ld_phase_b (bp : Vec Ideal S4x1024 .f32) (o : Nat)
    (inb : ∀ a, (![o, 0] : Fin 2 → Nat) a + S1x1024.size a ≤ S4x1024.size a) (k : Fin 4) (hk : k.val = o) (q : Fin 1024) :
    View.ld bp (Rect.unit (s := S4x1024) ![o, 0] S1x1024.size inb) (ix2 (0 : Fin 1) q) = bp (ix2 k q) := by
  subst hk
  exact congrArg bp (funext fun a => Fin.ext (by
    match a with
    | ⟨0, _⟩ => show k.val + 1 * 0 = k.val; omega
    | ⟨1, _⟩ => show 0 + 1 * q.val = q.val; omega))

/-- Phase `k`'s term at block row `p` and window `q`, over the stacked phase arrays. -/
def blin (xb : Vec Ideal S1024x1024 .f32) (wp : Vec Ideal S4x1024x1024 .bf16) (bp : Vec Ideal S4x1024 .f32) (p q : Fin 1024) (k : Fin 4) : EReal :=
  (∑ i : Fin 1024, (xb (ix2 p i) : EReal) * wp (ix3 k i q)) + bp (ix2 k q)

theorem ph_ld (xb : Vec Ideal S1024x1024 .f32) (wp : Vec Ideal S4x1024x1024 .bf16) (bp : Vec Ideal S4x1024 .f32) (o : Nat)
    (inbw : ∀ a, (![o, 0, 0] : Fin 3 → Nat) a + S1x1024x1024.size a ≤ S4x1024x1024.size a)
    (inbb : ∀ a, (![o, 0] : Fin 2 → Nat) a + S1x1024.size a ≤ S4x1024.size a) (k : Fin 4) (hk : k.val = o) (p q : Fin 1024) :
    ph xb (View.ld wp (Rect.unit (s := S4x1024x1024) ![o, 0, 0] S1x1024x1024.size inbw))
      (View.ld bp (Rect.unit (s := S4x1024) ![o, 0] S1x1024.size inbb)) p q = blin xb wp bp p q k := by
  unfold ph blin
  rw [ld_phase_b bp o inbb k hk q]
  exact congrArg (· + bp (ix2 k q)) (Finset.sum_congr rfl fun i _ => by rw [ld_phase_w wp o inbw k hk i q])

/-- Row `p` of what the body stores: the sum over the windows of the maximum of the four phases. -/
theorem out_apply (xb : Vec Ideal S1024x1024 .f32) (wp : Vec Ideal S4x1024x1024 .bf16) (bp : Vec Ideal S4x1024 .f32) (p : Fin 1024) :
    out0_3 (F := Ideal) xb wp bp (ix1 p) = ∑ q : Fin 1024, max4 (blin xb wp bp p q) := by
  unfold out0_3
  rw [View.canon_unit_zero hz1]
  rw [View.ld_unit_zero (S := S1024x1024) hz2]
  refine (pay_apply xb _ _ _ _ _ _ _ _ p).trans ?_
  refine Finset.sum_congr rfl fun q _ => ?_
  unfold max4
  exact congrArg₂ max (congrArg₂ max (congrArg₂ max
    (ph_ld xb wp bp 0 _ _ 0 rfl p q) (ph_ld xb wp bp 1 _ _ 1 rfl p q)) (ph_ld xb wp bp 2 _ _ 2 rfl p q)) (ph_ld xb wp bp 3 _ _ 3 rfl p q)

/-- When the block's rows are rows `r p` of `x`, the phase matrices hold `w[4q + k, i]` at `(k, i, q)` and the phase bias
    rows hold `b[4q + k]` at `(k, q)`, row `p` of what the body stores is the pooled linear layer at row `r p`. -/
theorem out_row (xb : Vec Ideal S1024x1024 .f32) (wp : Vec Ideal S4x1024x1024 .bf16) (bp : Vec Ideal S4x1024 .f32)
    (X : (⟨2, ![16384, 1024]⟩ : Shape).Idx → EReal) (W : (⟨2, ![4096, 1024]⟩ : Shape).Idx → EReal) (B : (⟨1, ![4096]⟩ : Shape).Idx → EReal)
    (r : Fin 1024 → Fin 16384)
    (hx : ∀ p i, xb (ix2 p i) = X (ix2 (r p) i)) (hw : ∀ k i q, wp (ix3 k i q) = W (ix2 (chan q k) i))
    (hb : ∀ k q, bp (ix2 k q) = B (ix1 (chan q k))) (p : Fin 1024) :
    out0_3 (F := Ideal) xb wp bp (ix1 p) = pooled X W B (r p) := by
  rw [out_apply]
  unfold pooled
  refine Finset.sum_congr rfl fun q _ => congrArg max4 (funext fun k => ?_)
  unfold blin lin
  rw [hb k q]
  exact congrArg (· + B (ix1 (chan q k))) (Finset.sum_congr rfl fun i _ => by rw [hx p i, hw k i q])

end Cert.KernelIdeal.PoolValue

end
-- ==== Proof.KernelValue.lean ====
/-
  The kernel's result array is the pooled linear layer `PoolSpec.G` of its three arguments.

  Before the grid runs, the host lays the weight out as four "phase" matrices: the [4096, 1024] weight is viewed as
  [1024, 4, 1024] (window, member, feature) and its axes permuted to (member, feature, window), so entry `(k, i, q)`
  is `w[4q + k, i]`; the bias is viewed as [1024, 4] and transposed, so entry `(k, q)` is `b[4q + k]`.  Both
  are staged whole at every grid point.  Point `t` stages rows `1024 t … 1024 t + 1023` of `x` and writes rows
  `1024 t … 1024 t + 1023` of the result, so what it writes at row `p` of its block is `pooled x w b (1024 t + p)`:
  block `t` of `G`.  The sixteen blocks tile the 16384 rows, hence the array ends at `G`.
-/
import proofs.«154940_j23656679866950_1_alg».proof.Proof.Gen.KernelIdeal.Value
import proofs.«154940_j23656679866950_1_alg».proof.Proof.KernelBlock
import Idealize.ShloMosaic.Lib.StableHlo.Run

noncomputable section

open scoped BigOperators

namespace Cert.KernelIdeal.PoolValue

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)
open Cert.PoolSpec

variable (m : (ℓ : Loc nD τ sig) → Buf (Elt Ideal) ℓ) (ρ : Dev nD → PrngReg)

/-- The three argument arrays as launched, at their literal types. -/
abbrev xarr (c : Dev nD) : Vec Ideal S16384x1024 .f32 := m ((c : Thread nD τ).loc main_arg0)
abbrev warr (c : Dev nD) : Vec Ideal S4096x1024 .f32 := m ((c : Thread nD τ).loc main_arg1)
abbrev barr (c : Dev nD) : Vec Ideal S4096 .f32 := m ((c : Thread nD τ).loc main_arg2)

/-! ## The phase arrays the host prepares -/

/-- The stacked phase matrices: the weight viewed by (window, member, feature), permuted to (member, feature,
    window); the change of float format is the identity. -/
theorem V_phase_w (c : Dev nD) : (V m c main_v2 : S4x1024x1024.Idx → EReal)
    = truncf (F := Ideal) .bf16 (transpose S4x1024x1024 [1, 2, 0] (shapeCast S1024x4x1024 (warr m c) shapeCasts_S4096x1024_S1024x4x1024)
        transposes_S1024x4x1024_S4x1024x1024_1_2_0) bitsLt_bf16_f32 := by
  dsimp only [Gen.V, Gen.hostOps0]; after_results; rfl

/-- The stacked bias rows: the bias viewed by (window, member), transposed. -/
theorem V_phase_b (c : Dev nD) : (V m c main_v4 : S4x1024.Idx → EReal)
    = transpose S4x1024 [1, 0] (shapeCast S1024x4 (barr m c) shapeCasts_S4096_S1024x4) transposes_S1024x4_S4x1024_1_0 := by
  dsimp only [Gen.V, Gen.hostOps0]; after_results; rfl

/-- Entry `(k, i, q)` of the phase matrices is `w[4q + k, i]`. -/
theorem phase_w_apply (c : Dev nD) (k : Fin 4) (i q : Fin 1024) :
    (V m c main_v2 : S4x1024x1024.Idx → EReal) (ix3 k i q) = warr m c (ix2 (chan q k) i) := by
  rw [V_phase_w]
  show transpose S4x1024x1024 [1, 2, 0] (shapeCast S1024x4x1024 (warr m c) shapeCasts_S4096x1024_S1024x4x1024)
        transposes_S1024x4x1024_S4x1024x1024_1_2_0 (ix3 k i q) = _
  refine (transpose_apply [1, 2, 0] _ transposes_S1024x4x1024_S4x1024x1024_1_2_0 (ix3 k i q) (ix3 q k i)
    (fun b => match b with | ⟨0, _⟩ => rfl | ⟨1, _⟩ => rfl | ⟨2, _⟩ => rfl)).trans ?_
  exact shapeCast_apply (warr m c) shapeCasts_S4096x1024_S1024x4x1024 (ix3 q k i) (ix2 (chan q k) i) (by
    rw [Shape.rowMajor_val_two, Shape.rowMajor_val_three]
    show (4 * q.val + k.val) * 1024 + i.val = (q.val * 4 + k.val) * 1024 + i.val
    omega)

/-- Entry `(k, q)` of the phase bias rows is `b[4q + k]`. -/
theorem phase_b_apply (c : Dev nD) (k : Fin 4) (q : Fin 1024) :
    (V m c main_v4 : S4x1024.Idx → EReal) (ix2 k q) = barr m c (ix1 (chan q k)) := by
  rw [V_phase_b]
  refine (transpose_ix2_apply _ transposes_S1024x4_S4x1024_1_0 k q).trans ?_
  exact shapeCast_apply (barr m c) shapeCasts_S4096_S1024x4 (ix2 q k) (ix1 (chan q k)) (by
    rw [Shape.rowMajor_val_one, Shape.rowMajor_val_two]
    show 4 * q.val + k.val = q.val * 4 + k.val
    omega)

/-! ## The windows' blocks at a grid point -/

/-- The printed index maps over the sixteen points: the `x` window and the result window move with the point, the
    phase arrays stay at block 0. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = t.val :=
  (by decide +kernel : ∀ t : Fin grid0.N, _)

/-- The row of the arrays that row `p` of point `t`'s block is. -/
def rowOf (t : Fin cfg0.N) (p : Fin 1024) : Fin 16384 :=
  ⟨t.val * 1024 + p.val, by have hN : grid0.N = 16 := N_0; have ht : t.val < grid0.N := t.isLt; have := p.isLt; omega⟩

/-- Point `t`'s `x` block holds rows `1024 t …` of `x`. -/
theorem xblk_apply (c : Dev nD) (t : Fin cfg0.N) (p i : Fin 1024) :
    iblk m c 0 t (ix2 p i) = xarr m c (ix2 (rowOf t p) i) := by
  obtain ⟨e0, e1, -⟩ := idx_facts t
  show V m c main_arg0 (((cfg0.win 0).blk t).view.emb (ix2 p i)) = _
  rw [V_main_arg0]
  refine congrArg (xarr m c) (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * i.val = i.val; omega

/-- Every point stages the phase matrices whole. -/
theorem wblk_apply (c : Dev nD) (t : Fin cfg0.N) (k : Fin 4) (i q : Fin 1024) :
    iblk m c 1 t (ix3 k i q) = warr m c (ix2 (chan q k) i) := by
  obtain ⟨-, -, e2, e3, e4, -⟩ := idx_facts t
  show (V m c main_v2 : S4x1024x1024.Idx → EReal) (((cfg0.win 1).blk t).view.emb (ix3 k i q)) = _
  have he : ((cfg0.win 1).blk t).view.emb (ix3 k i q) = ix3 k i q := funext fun a => Fin.ext (by
    match a with
    | ⟨0, _⟩ => show win0_1.index t (0 : Fin 3) * 4 + 1 * k.val = k.val; omega
    | ⟨1, _⟩ => show win0_1.index t (1 : Fin 3) * 1024 + 1 * i.val = i.val; omega
    | ⟨2, _⟩ => show win0_1.index t (2 : Fin 3) * 1024 + 1 * q.val = q.val; omega)
  exact (congrArg (V m c main_v2 : S4x1024x1024.Idx → EReal) he).trans (phase_w_apply m c k i q)

/-- Every point stages the phase bias rows whole. -/
theorem bblk_apply (c : Dev nD) (t : Fin cfg0.N) (k : Fin 4) (q : Fin 1024) :
    iblk m c 2 t (ix2 k q) = barr m c (ix1 (chan q k)) := by
  obtain ⟨-, -, -, -, -, e5, e6, -⟩ := idx_facts t
  show (V m c main_v4 : S4x1024.Idx → EReal) (((cfg0.win 2).blk t).view.emb (ix2 k q)) = _
  have he : ((cfg0.win 2).blk t).view.emb (ix2 k q) = ix2 k q := funext fun a => Fin.ext (by
    match a with
    | ⟨0, _⟩ => show win0_2.index t (0 : Fin 2) * 4 + 1 * k.val = k.val; omega
    | ⟨1, _⟩ => show win0_2.index t (1 : Fin 2) * 1024 + 1 * q.val = q.val; omega)
  exact (congrArg (V m c main_v4 : S4x1024.Idx → EReal) he).trans (phase_b_apply m c k q)

/-! ## From blocks to the array -/

/-- What point `t` writes back is block `t` of the pooled linear layer of the arguments. -/
theorem flushed_eq (c : Dev nD) (t : Fin cfg0.N) :
    (dats m 0 c).flushed 3 t = ((cfg0.win 3).blk t).view.read (Elt Ideal) (G (xarr m c) (warr m c) (barr m c)) := by
  rw [Value.flushed3]
  funext y
  obtain ⟨p, rfl⟩ : ∃ p : Fin 1024, y = ix1 p := ⟨y 0, eq_ix1 y⟩
  show out0_3 (F := Ideal) (iblk m c 0 t) (iblk m c 1 t) (iblk m c 2 t) (ix1 p)
    = pooled (xarr m c) (warr m c) (barr m c) ((((cfg0.win 3).blk t).view.emb (ix1 p)) 0)
  refine (out_row (iblk m c 0 t) (iblk m c 1 t) (iblk m c 2 t) (xarr m c) (warr m c) (barr m c) (rowOf t)
    (xblk_apply m c t) (wblk_apply m c t) (bblk_apply m c t) p).trans ?_
  obtain ⟨-, -, -, -, -, -, -, e7⟩ := idx_facts t
  refine congrArg (pooled (xarr m c) (warr m c) (barr m c)) (Fin.ext ?_)
  show t.val * 1024 + p.val = win0_3.index t (0 : Fin 1) * 1024 + 1 * p.val
  omega

/-- An index of the result array is in point `t`'s block iff its row is in the block's range. -/
theorem mem_blk (t : Fin cfg0.N) (i : S16384.Idx) :
    i ∈ ((cfg0.win 3).blk t).view.set ↔ ∀ a : Fin 1, win0_3.index t a * S1024.size a ≤ (i a).val ∧ (i a).val < win0_3.index t a * S1024.size a + S1024.size a := by
  show i ∈ ((View.whole main_v5).slice (win0_3.rect t)).set ↔ _
  rw [View.set_slice_whole, Rect.mem_set_unit]
  exact Iff.rfl

/-- The sixteen blocks tile the 16384 rows: row `r` is in the block of point `r / 1024`. -/
theorem cover (i : S16384.Idx) : ∃ t : Fin cfg0.N, (cfg0.win 3).flush t = true ∧ i ∈ ((cfg0.win 3).blk t).view.set := by
  have hi : (i 0).val < 16384 := (i 0).isLt
  have hN : grid0.N = 16 := N_0
  have ht : (i 0).val / 1024 < grid0.N := by omega
  refine ⟨⟨(i 0).val / 1024, ht⟩, flush0_3 _, ?_⟩
  rw [mem_blk]
  intro a
  obtain ⟨-, -, -, -, -, -, -, e7⟩ := idx_facts ⟨(i 0).val / 1024, ht⟩
  have e7' : win0_3.index (⟨(i 0).val / 1024, ht⟩ : Fin cfg0.N) (0 : Fin 1) = (i 0).val / 1024 := e7
  match a with
  | ⟨0, _⟩ =>
    show win0_3.index (⟨(i 0).val / 1024, ht⟩ : Fin cfg0.N) (0 : Fin 1) * 1024 ≤ (i 0).val
      ∧ (i 0).val < win0_3.index (⟨(i 0).val / 1024, ht⟩ : Fin cfg0.N) (0 : Fin 1) * 1024 + 1024
    omega

/-- The result array after the run is the pooled linear layer of the arguments. -/
theorem final (c : Dev nD) : (dats m 0 c).arrAt 3 cfg0.N = G (xarr m c) (warr m c) (barr m c) :=
  (dats m 0 c).arrAt_eq_of_cover 3 (G (xarr m c) (warr m c) (barr m c)) (fun t _ => flushed_eq m c t) cover

/-- The kernel's run: it terminates with the result array at the pooled linear layer of the arguments, which are unchanged. -/
theorem run : θ_run defs (onTc (τ := τ) (main (F := Ideal))) ⟨m, fun _ => 0, ρ⟩ fun r => ∀ c : Dev nD,
      r.2.mem ((c : Thread nD τ).loc main_v5) = G (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.PoolValue

end
-- ==== Proof.lean ====
/-
  A linear layer over 4096 output channels, max-pooled over non-overlapping windows of four consecutive channels
  and summed over the 1024 windows: `out[r] = ∑ j, max_k (∑ i, x[r, i] · w[4j + k, i] + b[4j + k])`.

  The kernel computes it block of 1024 rows by block, against four "phase" matrices the host lays out beforehand
  (phase `k` holds weight rows `4j + k`), as a running maximum over the phases followed by a row sum; the reference
  computes the whole linear output, views each row as windows of four, folds `max` from `-∞` over each window and
  sums the maxima.  On the extended reals both are the same function `PoolSpec.G` of the three arguments, term by
  term: the same products summed over the features, the same bias added, the maximum of the same four numbers
  (`-∞` is neutral for `max`, and the zero the sums start from is neutral for `+`), summed over the same windows.
  No cancellation and no distributivity is used, so the inputs' finiteness is not needed.

  The idealized kernel is the kernel's own text read on the extended reals (no operation was rewritten), so the
  idealization claim is trivial; the three frames are the two kernels' runs and the reference's run with the
  results dropped.
-/
import proofs.«154940_j23656679866950_1_alg».proof.Defs
import proofs.«154940_j23656679866950_1_alg».proof.Proof.Gen.Kernel
import proofs.«154940_j23656679866950_1_alg».proof.Proof.Gen.Kernel.Skeleton
import proofs.«154940_j23656679866950_1_alg».proof.Proof.Gen.Kernel.Launch
import proofs.«154940_j23656679866950_1_alg».proof.Proof.Gen.Kernel.Points
import proofs.«154940_j23656679866950_1_alg».proof.Proof.Gen.Kernel.Frame
import proofs.«154940_j23656679866950_1_alg».proof.Proof.Gen.KernelIdeal
import proofs.«154940_j23656679866950_1_alg».proof.Proof.Gen.KernelIdeal.Skeleton
import proofs.«154940_j23656679866950_1_alg».proof.Proof.Gen.KernelIdeal.Launch
import proofs.«154940_j23656679866950_1_alg».proof.Proof.Gen.KernelIdeal.Points
import proofs.«154940_j23656679866950_1_alg».proof.Proof.Gen.KernelIdeal.Frame
import proofs.«154940_j23656679866950_1_alg».proof.Proof.Gen.ReferenceIdeal
import proofs.«154940_j23656679866950_1_alg».proof.Proof.Gen.Pre_finite_inputs
import proofs.«154940_j23656679866950_1_alg».proof.Proof.Gen.KernelIdeal.Value
import proofs.«154940_j23656679866950_1_alg».proof.Proof.Gen.ReferenceIdeal.Run
import proofs.«154940_j23656679866950_1_alg».proof.Proof.Gen.ReferenceIdeal.Read
import proofs.«154940_j23656679866950_1_alg».proof.Proof.PoolSpec
import proofs.«154940_j23656679866950_1_alg».proof.Proof.RefIsG
import proofs.«154940_j23656679866950_1_alg».proof.Proof.KernelBlock
import proofs.«154940_j23656679866950_1_alg».proof.Proof.KernelValue
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the pooled linear layer of their (agreeing) arguments in the result array. -/
theorem algebraic : Cert.algebraic_KernelIdeal_ReferenceIdeal := by
  intro m ρ m' ρ' _ hagree
  refine ⟨fun c => Cert.PoolSpec.G (Cert.KernelIdeal.PoolValue.xarr m c) (Cert.KernelIdeal.PoolValue.warr m c) (Cert.KernelIdeal.PoolValue.barr m c),
    Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
